-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x64 : Shape := ⟨2, ![512, 64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S100000x512 .f32) (main_arg1 : IVec S1600000 32) (main_arg2 : IVec S1600000 32) (main_arg3 : FVec F S1600000 .f32) (main_arg4 : FVec F S512x64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x64 .f32 := Host.absf main_arg4
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  main_v13
-- ==== Kernel.lean ====
abbrev S100000x512 : Shape := ⟨2, ![100000, 512]⟩
abbrev S1600000 : Shape := ⟨1, ![1600000]⟩
abbrev S512x64 : Shape := ⟨2, ![512, 64]⟩
abbrev S100000x64 : Shape := ⟨2, ![100000, 64]⟩
abbrev S4000x512 : Shape := ⟨2, ![4000, 512]⟩
abbrev S4000x64 : Shape := ⟨2, ![4000, 64]⟩
abbrev S_ : Shape := ⟨0, ![]⟩
abbrev S1600000x1 : Shape := ⟨2, ![1600000, 1]⟩
abbrev S1600000x64 : Shape := ⟨2, ![1600000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 24
  | .vmem => 9
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x64, .f32⟩
  | .hbm, ⟨5, _⟩ => ⟨S512x64, .bf16⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x1, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S512x64, .bf16⟩
  | .local _ .vmem, ⟨3, _⟩ => ⟨S4000x64, .f32⟩
  | .local _ .vmem, ⟨4, _⟩ => ⟨S4000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bitsLt_bf16_f32 : FTy.bits .bf16 < FTy.bits .f32
  inb_S4000x512_S4000x512_0_0 : ∀ a, (![0, 0] : Fin 2 → Nat) a + S4000x512.size a ≤ S4000x512.size a
  h_S4000x512 : 0 < S4000x512.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S4000x64_S4000x64_0_0 : ∀ a, (![0, 0] : Fin 2 → Nat) a + S4000x64.size a ≤ S4000x64.size a
  h_S4000x64 : 0 < S4000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  dot_S4000x512_S512x64_S4000x64_1_0_0_1_n_n_wf : DotDims.WF S4000x512 S512x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .bf16 = 32 ∨ (Rect.block (s := S512x64) S512x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)

variable [Facts₀]

def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x64 : Shape := ⟨2, ![512, 64]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩

abbrev nBuf : Space → Nat
  | .hbm => 36
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x64, .f32⟩
  | .hbm, ⟨5, _⟩ => ⟨S100000x64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S_, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000, .f32⟩
  | .hbm, ⟨33, _⟩ => ⟨S100000x1, .f32⟩
  | .hbm, ⟨34, _⟩ => ⟨S100000x64, .f32⟩
  | .hbm, ⟨35, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x512_S512x64_S100000x64_1_0_0_1_n_n_wf : DotDims.WF S100000x512 S512x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Stretches.lean ====
/-
  What the buffers hold at the boundaries of the kernel program's run, for the buffers the value depends on.

  Before the projection's pipeline the only host operation narrows the weight matrix to bf16 (at the ideal
  values a change of format is the identity, but the term is kept as written). Between the two pipelines
  sixteen host operations compute the edge aggregation: negative source indices wrapped by adding 100000,
  the projected rows gathered at the sources, each scaled by its edge weight, and scatter-added into a zero
  array at the destinations. That chain is named agg here and never opened: the reference applies the very
  same operations, so only its operand h (the projection) has to be compared.
-/
import proofs.«425179_j36859409334535_3_alg».proof.Proof.Gen.KernelIdeal.Frame
import Idealize.ShloMosaic.Lib.StableHlo.Run

noncomputable section

namespace Cert.KernelIdeal.Mid

open Cert.KernelIdeal Cert.KernelIdeal.Gen
open Idealize.ShloMosaic Idealize.ShloMosaic.TcCoe Idealize.SL.Sem Idealize.ShloMosaic.StableHlo

variable {F : FTy → Type} [FloatOps F]

/-- The edge aggregation: out[d] = sum over edges e with dst e = d of h[src' e] * w e, src' the source index with a
    negative value wrapped once, as the sixteen host operations between the two pipelines spell it. -/
def agg (h : (⟨S100000x64, .f32⟩ : BufTy).Contents (Elt F)) (src dst : (⟨S1600000, .i32⟩ : BufTy).Contents (Elt F))
    (w : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 w)))

variable (m : (ℓ : Loc nD τ sig) → Buf (Elt F) ℓ) (ρ : Dev nD → PrngReg)

/-- The projection's pipeline is entered with the feature matrix as launched. -/
theorem entry0_x (c : Dev nD) : V1 m ρ c main_arg0 = m ((c : Thread nD τ).loc main_arg0) := by
  show StableHlo.after hostOps0 (W0 m ρ c) (Proc.devRef .tc main_arg0) = _
  after_results

/-- and with the weight matrix narrowed to bf16. -/
theorem entry0_w (c : Dev nD) :
    V1 m ρ c main_v0 = truncf .bf16 (m ((c : Thread nD τ).loc main_arg4)) bitsLt_bf16_f32 := by
  show StableHlo.after hostOps0 (W0 m ρ c) (Proc.devRef .tc main_v0) = _
  after_results

/-- The three edge arrays reach the second stretch of host operations as launched: the projection's pipeline and the
    first stretch write none of them. -/
theorem mid_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results
theorem mid_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results
theorem mid_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results

/-- The projection's result array, as the second stretch finds it, is what that pipeline's write-backs leave. -/
theorem mid_h (c : Dev nD) :
    W2 m ρ c (Proc.devRef .tc main_v1) = (dat0 (V1 m ρ) c).arrAt 2 cfg0.N := W2_arr m ρ c 2

/-- The softmax's pipeline is entered with its input array at the edge aggregation of the projection's result. -/
theorem entry1_agg (c : Dev nD) :
    V3 m ρ c main_v14 = agg (W2 m ρ c (Proc.devRef .tc main_v1)) (m ((c : Thread nD τ).loc main_arg1))
      (m ((c : Thread nD τ).loc main_arg2)) (m ((c : Thread nD τ).loc main_arg3)) := by
  show StableHlo.after hostOps1 (W2 m ρ c) (Proc.devRef .tc main_v14) = _
  after_results
  rw [mid_arg1, mid_arg2, mid_arg3]
  rfl

/-- The result array after the run is what the softmax's pipeline leaves. -/
theorem exit_out (c : Dev nD) :
    W4 m ρ c (Proc.devRef .tc main_v15) = (dat1 (V3 m ρ) c).arrAt 1 cfg1.N := W4_arr m ρ c 1

end Cert.KernelIdeal.Mid

end
-- ==== Proof.Spec.lean ====
/-
  The mathematics both programs compute, stated once over literal shapes and the extended reals.

  proj x w  : the dense projection, entry (r, c) the sum over k of x(r, k) * w(k, c), 512 terms.
  rowMax v  : the largest entry of a 64-entry row, as a fold of max starting from the value of the
              bit pattern of minus infinity (the neutral start both programs use).
  rowSoft v : the softmax of one row: exp (v q - rowMax v) divided by the sum over the row of
              exp (v k - rowMax v).
  soft a    : rowSoft applied to every row of a [100000, 64] array.
  Nothing here depends on a program; addition and max on the extended reals are commutative and
  associative, which is all the comparison of the two programs needs.
-/
import Idealize.ShloMosaic.PureOps.Ideal
import Idealize.ShloMosaic.PureOps.Ideal.Laws
import Idealize.ShloMosaic.Lib.ValueIdx

noncomputable section

namespace Gcn

open Idealize.ShloMosaic

abbrev SN64 : Shape := ⟨2, ![100000, 64]⟩
abbrev SN512 : Shape := ⟨2, ![100000, 512]⟩
abbrev SW : Shape := ⟨2, ![512, 64]⟩

/-- The index in the row of i, at column k. -/
abbrev rc (i : SN64.Idx) (k : Fin 64) : SN64.Idx := fun a => match a with
  | ⟨0, _⟩ => ⟨(i 0).val, (i 0).isLt⟩
  | ⟨1, _⟩ => ⟨k.val, k.isLt⟩

/-- The left factor's index for output index i and contraction coordinate k: (row of i, k). -/
abbrev li (i : SN64.Idx) (k : Fin 512) : SN512.Idx := fun a => match a with
  | ⟨0, _⟩ => ⟨(i 0).val, (i 0).isLt⟩
  | ⟨1, _⟩ => ⟨k.val, k.isLt⟩

/-- The right factor's index: (k, column of i). -/
abbrev ri (i : SN64.Idx) (k : Fin 512) : SW.Idx := fun a => match a with
  | ⟨0, _⟩ => ⟨k.val, k.isLt⟩
  | ⟨1, _⟩ => ⟨(i 1).val, (i 1).isLt⟩

/-- The dense projection: entry i = (r, c) is the sum over k of x (r, k) * w (k, c). -/
def proj (x : SN512.Idx → EReal) (w : SW.Idx → EReal) : SN64.Idx → EReal :=
  fun i => ∑ k : Fin 512, x (li i k) * w (ri i k)

/-- A row's maximum: max folded over the 64 entries from the value of minus infinity's bit pattern. -/
def rowMax (v : Fin 64 → EReal) : EReal :=
  (Finset.univ : Finset (Fin 64)).fold max (Ideal.ofBits .f32 0xFF800000#32) v

/-- The softmax of one row at column q. -/
def rowSoft (v : Fin 64 → EReal) (q : Fin 64) : EReal :=
  Ideal.div (Ideal.exp (v q - rowMax v)) (∑ k : Fin 64, Ideal.exp (v k - rowMax v))

/-- The row softmax of a [100000, 64] array. -/
def soft (a : SN64.Idx → EReal) : SN64.Idx → EReal :=
  fun i => rowSoft (fun k => a (rc i k)) ⟨(i 1).val, (i 1).isLt⟩

/-- Taking max once more with the fold's own starting value changes nothing: the fold is already above it. -/
theorem max_start_rowMax (v : Fin 64 → EReal) :
    max (Ideal.ofBits .f32 0xFF800000#32) (rowMax v) = rowMax v :=
  max_eq_right ((Finset.le_fold_max _).mpr (Or.inl le_rfl))

end Gcn

end
-- ==== Proof.ProjRegion.lean ====
/-
  The first pipeline: h = x * W, computed 4000 rows at a time on a grid of 25 points.

  At a point the body loads a [4000, 512] block of x and the whole [512, 64] weight matrix, and stores the matrix
  product accumulated into a zero array. At the ideal values the narrowing of x to bf16 is the identity and the
  product at (p, q) is the sum over k of x(p, k) * w(k, q). Row p of the block at point t is row 4000 * t + p of x,
  so the block written back at point t is rows 4000 * t .. 4000 * t + 3999 of the one function proj x w, and the
  25 blocks cover the result array.
-/
import proofs.«425179_j36859409334535_3_alg».proof.Proof.Gen.KernelIdeal.Frame
import proofs.«425179_j36859409334535_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.ProjRegion

open Cert.KernelIdeal Cert.KernelIdeal.Gen
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-! ## The body's product at an index -/

theorem lhs_axis0 (j : S4000x64.Idx) (q : dot_S4000x512_S512x64_S4000x64_1_0_0_1_n_n.contr.Idx) :
    (dot_S4000x512_S512x64_S4000x64_1_0_0_1_n_n.lhsIdx j q 0).val = (j 0).val := by
  unfold DotDims.lhsIdx
  rw [dif_neg (show ¬(0 : Fin S4000x512.rank) ∈ dot_S4000x512_S512x64_S4000x64_1_0_0_1_n_n.lhsBatch by decide), dif_pos (show (0 : Fin S4000x512.rank) ∈ dot_S4000x512_S512x64_S4000x64_1_0_0_1_n_n.lhsNonContracting by decide)]
  rfl
theorem lhs_axis1 (j : S4000x64.Idx) (q : dot_S4000x512_S512x64_S4000x64_1_0_0_1_n_n.contr.Idx) :
    (dot_S4000x512_S512x64_S4000x64_1_0_0_1_n_n.lhsIdx j q 1).val = (q ⟨0, by decide⟩).val :=
  dot_S4000x512_S512x64_S4000x64_1_0_0_1_n_n.lhsIdx_val_of_single rfl j q
theorem rhs_axis0 (j : S4000x64.Idx) (q : dot_S4000x512_S512x64_S4000x64_1_0_0_1_n_n.contr.Idx) :
    (dot_S4000x512_S512x64_S4000x64_1_0_0_1_n_n.rhsIdx j q 0).val = (q ⟨0, by decide⟩).val :=
  dot_S4000x512_S512x64_S4000x64_1_0_0_1_n_n.rhsIdx_val_of_single rfl j q
theorem rhs_axis1 (j : S4000x64.Idx) (q : dot_S4000x512_S512x64_S4000x64_1_0_0_1_n_n.contr.Idx) :
    (dot_S4000x512_S512x64_S4000x64_1_0_0_1_n_n.rhsIdx j q 1).val = (j 1).val := by
  unfold DotDims.rhsIdx
  rw [dif_neg (show ¬(1 : Fin S512x64.rank) ∈ dot_S4000x512_S512x64_S4000x64_1_0_0_1_n_n.rhsBatch by decide), dif_pos (show (1 : Fin S512x64.rank) ∈ dot_S4000x512_S512x64_S4000x64_1_0_0_1_n_n.rhsNonContracting by decide)]
  rfl

/-- In the block: (row of j, k). -/
abbrev lj (j : S4000x64.Idx) (k : Fin 512) : S4000x512.Idx := fun a => match a with
  | ⟨0, _⟩ => ⟨(j 0).val, (j 0).isLt⟩
  | ⟨1, _⟩ => ⟨k.val, k.isLt⟩
/-- In the weight matrix: (k, column of j). -/
abbrev rj (j : S4000x64.Idx) (k : Fin 512) : S512x64.Idx := fun a => match a with
  | ⟨0, _⟩ => ⟨k.val, k.isLt⟩
  | ⟨1, _⟩ => ⟨(j 1).val, (j 1).isLt⟩

/-- The body's stored value at (p, q) is the sum over k of x(p, k) * w(k, q). -/
theorem pay_apply (x : Vec Ideal S4000x512 .f32) (w : Vec Ideal S512x64 .bf16) (j : S4000x64.Idx) :
    k0_pay1 (F := Ideal) x w j = ∑ k : Fin 512, x (lj j k) * w (rj j k) := by
  unfold k0_pay1
  simp only [matmul]
  rw [Ideal.matmul_constant_zero_apply, ← Equiv.sum_comp (ValueIdx.contrEquiv1 dot_S4000x512_S512x64_S4000x64_1_0_0_1_n_n 512 rfl rfl).symm]
  refine Finset.sum_congr rfl fun k _ => ?_
  have hk := ValueIdx.contrEquiv1_symm_val dot_S4000x512_S512x64_S4000x64_1_0_0_1_n_n 512 rfl rfl k
  have el : dot_S4000x512_S512x64_S4000x64_1_0_0_1_n_n.lhsIdx j ((ValueIdx.contrEquiv1 dot_S4000x512_S512x64_S4000x64_1_0_0_1_n_n 512 rfl rfl).symm k) = lj j k := funext fun a => Fin.ext (by
    match a with
    | ⟨0, _⟩ => exact lhs_axis0 _ _
    | ⟨1, _⟩ => exact (lhs_axis1 _ _).trans hk)
  have er : dot_S4000x512_S512x64_S4000x64_1_0_0_1_n_n.rhsIdx j ((ValueIdx.contrEquiv1 dot_S4000x512_S512x64_S4000x64_1_0_0_1_n_n 512 rfl rfl).symm k) = rj j k := funext fun a => Fin.ext (by
    match a with
    | ⟨0, _⟩ => exact (rhs_axis0 _ _).trans hk
    | ⟨1, _⟩ => exact rhs_axis1 _ _)
  rw [el, er, shapeCast_self]
  rfl

/-! ## The index maps over the grid -/

/-- The x block and the output block move together along the rows; every other block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 25 row blocks is some point's. -/
theorem idx_onto : ∀ q : Fin 25, ∃ t : Fin cfg0.N, win0_2.index t (0 : Fin 2) = q.val :=
  (by decide +kernel : ∀ q : Fin 25, ∃ t : Fin grid0.N, win0_2.index t (0 : Fin 2) = q.val)

variable (V : (c : Dev nD) → (b : Ref sig .tc) → Buf (Elt Ideal) ((c : Thread nD τ).loc b))

/-- What point t writes back is block t of the projection of the arrays the pipeline is entered with. -/
theorem flushed_eq (c : Dev nD) (t : Fin cfg0.N) :
    (dat0 (F := Ideal) V c).flushed 2 t
      = ((cfg0.win 2).blk t).view.read (Elt Ideal) (Gcn.proj (V c main_arg0) (V c main_v0)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x64) hz]
  obtain ⟨e0, e1, e2, e3, e4⟩ := idx_facts t
  funext j
  show k0_pay1 (F := Ideal) (iblk0 V c 0 t) (iblk0 V c 1 t) j = Gcn.proj (V c main_arg0) (V c main_v0) (((cfg0.win 2).blk t).view.emb j)
  rw [pay_apply]
  unfold Gcn.proj
  refine Finset.sum_congr rfl fun k _ => ?_
  have hx : iblk0 V c 0 t (lj j k) = V c main_arg0 (Gcn.li (((cfg0.win 2).blk t).view.emb j) k) := by
    show V c main_arg0 (((cfg0.win 0).blk t).view.emb (lj j k)) = _
    refine congrArg (V c main_arg0) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * k.val = k.val; omega
  have hw : iblk0 V c 1 t (rj j k) = V c main_v0 (Gcn.ri (((cfg0.win 2).blk t).view.emb j) k) := by
    show V c main_v0 (((cfg0.win 1).blk t).view.emb (rj j k)) = _
    refine congrArg (V c main_v0) (funext fun a => Fin.ext ?_)
    match a with
    | ⟨0, _⟩ => show win0_1.index t (0 : Fin 2) * 512 + 1 * k.val = k.val; omega
    | ⟨1, _⟩ => show win0_1.index t (1 : Fin 2) * 64 + 1 * (j 1).val = win0_2.index t (1 : Fin 2) * 64 + 1 * (j 1).val; omega
  rw [hx, hw]

/-- An index of the array is in point t's block iff each coordinate is in the block's range on its axis. -/
theorem mem_blk (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v1).slice (win0_2.rect t)).set ↔ _
  rw [View.set_slice_whole, Rect.mem_set_unit]
  exact Iff.rfl

/-- Row r of the result lies in the block of the point whose row-block index is r / 4000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 4000, by omega⟩
  have ht' : win0_2.index t (0 : Fin 2) = (i 0).val / 4000 := ht
  obtain ⟨e0, e1, e2, e3, e4⟩ := idx_facts t
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- The projection's result array after its pipeline: proj of the arrays the pipeline is entered with. -/
theorem final0 (c : Dev nD) :
    (dat0 (F := Ideal) V c).arrAt 2 cfg0.N = Gcn.proj (V c main_arg0) (V c main_v0) :=
  (dat0 (F := Ideal) V c).arrAt_eq_of_cover 2 _ (fun t _ => flushed_eq V c t) cover

end Cert.KernelIdeal.ProjRegion

end
-- ==== Proof.SoftRegion.lean ====
/-
  The second pallas_call: a row softmax over blocks of 5000 rows of a [100000, 64] array, on a grid of 20 points,
  read as one statement about the whole array.

  Three steps.
  (1) The body's arithmetic at an index (r, c) of a 5000 x 64 block x. The max-reduction along the columns, viewed as
      a column and spread back along the rows, reads at (r, c) the maximum of row r; subtracting, exponentiating,
      sum-reducing along the columns and spreading back likewise reads the sum over row r of exp (x (r, k) - max of row r).
      So the body's result at (r, c) is exp (x (r, c) - max) divided by that sum: the softmax of row r at column c.
  (2) Grid point t reads block t of the input rows and writes block t of the output rows, both windows taking every
      column; the array row of block row r is t * 5000 + r in both. Hence what point t writes back is block t of the
      row softmax of the whole input array.
  (3) Row r of the array lies in block r / 5000, one of the 20, so the blocks cover the array and the output array
      ends holding the row softmax of the input array.
-/
import proofs.«425179_j36859409334535_3_alg».proof.Proof.Gen.KernelIdeal.Frame
import proofs.«425179_j36859409334535_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.SoftRegion

open Cert.KernelIdeal Cert.KernelIdeal.Gen Idealize.ShloMosaic Idealize.ShloMosaic.TcCoe Idealize.SL.Sem
open Idealize.ShloMosaic.Pipeline (Dat)

/-! ## The body's arithmetic at an index of a block -/

/-- The one-coordinate index holding the row of a block index. -/
abbrev rowOf (j : S5000x64.Idx) : S5000.Idx := fun a => match a with
  | ⟨0, _⟩ => ⟨(j 0).val, (j 0).isLt⟩

/-- A per-row vector viewed as a column and spread along the rows reads, at (r, c), the vector at r. -/
theorem colcast_apply {α : Type} (v : S5000.Idx → α) (j : S5000x64.Idx) :
    broadcastTo S5000x64 (shapeCast S5000x1 v shapeCasts_S5000_S5000x1) broadcasts_S5000x1_S5000x64 j
      = v (rowOf j) := by
  refine (broadcastTo_apply _ _ j ((fun a => match a with | ⟨0, _⟩ => ⟨(j 0).val, (j 0).isLt⟩ | ⟨1, _⟩ => ⟨0, Nat.one_pos⟩) : S5000x1.Idx) ?_).trans ?_
  · intro a
    match a with
    | ⟨0, _⟩ => rfl
    | ⟨1, _⟩ => rfl
  · refine shapeCast_apply _ _ _ _ ?_
    rw [Shape.rowMajor_val_one, Shape.rowMajor_val_two]
    show (j 0).val = (j 0).val * 1 + 0
    omega

/-- The index of a block in the row of j, at column k. -/
abbrev rowAt (j : S5000x64.Idx) (k : Fin 64) : S5000x64.Idx := fun a => match a with
  | ⟨0, _⟩ => ⟨(j 0).val, (j 0).isLt⟩
  | ⟨1, _⟩ => ⟨k.val, k.isLt⟩

/-- Putting column k back into a row index gives the index in that row at column k. -/
theorem lift_eq (j : S5000x64.Idx) (k : Fin 64) :
    reduces_S5000x64_S5000.lift (rowOf j) k = rowAt j k := by
  funext a
  apply Fin.ext
  match a with
  | ⟨0, _⟩ => rfl
  | ⟨1, _⟩ => rfl

/-- The max-reduction along the columns, read at a row, is the row's maximum. -/
theorem rowmax_apply (x : Vec Ideal S5000x64 .f32) (j : S5000x64.Idx) :
    multiReduction (F := Ideal) .maximumf [1] S5000 x 0xFF800000#32 reduces_S5000x64_S5000 (.inl rfl) rfl (rowOf j)
      = Gcn.rowMax (fun k => x (rowAt j k)) := by
  refine (Ideal.multiReduction_maximumf_single (φ := .f32) (a := 1) x _ reduces_S5000x64_S5000 (.inl rfl) rfl (rowOf j)).trans ?_
  show Finset.fold max (Ideal.ofBits .f32 0xFF800000#32) (fun k : Fin 64 => x (reduces_S5000x64_S5000.lift (rowOf j) k)) Finset.univ
    = Finset.fold max (Ideal.ofBits .f32 0xFF800000#32) (fun k : Fin 64 => x (rowAt j k)) Finset.univ
  simp only [lift_eq]

/-- The sum-reduction along the columns, read at a row, is the sum over the row. -/
theorem rowsum_apply (y : Vec Ideal S5000x64 .f32) (j : S5000x64.Idx) :
    multiReduction (F := Ideal) .add [1] S5000 y 0x00000000#32 reduces_S5000x64_S5000 (.inl rfl) rfl (rowOf j)
      = ∑ k : Fin 64, y (rowAt j k) := by
  refine (Ideal.multiReduction_add_single (φ := .f32) (a := 1) y _ reduces_S5000x64_S5000 (.inl rfl) rfl (rowOf j)).trans ?_
  show ∑ k : Fin 64, y (reduces_S5000x64_S5000.lift (rowOf j) k) = ∑ k : Fin 64, y (rowAt j k)
  simp only [lift_eq]

/-- The shifted exponentials of the body at an index: exp of the entry minus its row's maximum. -/
theorem shifted_apply (x : Vec Ideal S5000x64 .f32) (j : S5000x64.Idx) :
    exp (F := Ideal) (subf x (broadcastTo S5000x64 (shapeCast S5000x1
        (multiReduction (F := Ideal) .maximumf [1] S5000 x 0xFF800000#32 reduces_S5000x64_S5000 (.inl rfl) rfl)
        shapeCasts_S5000_S5000x1) broadcasts_S5000x1_S5000x64)) j
      = Ideal.exp (x j - Gcn.rowMax (fun k => x (rowAt j k))) := by
  show Ideal.exp (x j - broadcastTo S5000x64 (shapeCast S5000x1
        (multiReduction (F := Ideal) .maximumf [1] S5000 x 0xFF800000#32 reduces_S5000x64_S5000 (.inl rfl) rfl)
        shapeCasts_S5000_S5000x1) broadcasts_S5000x1_S5000x64 j) = _
  rw [colcast_apply, rowmax_apply]

/-- An index of the block is the index in its own row at its own column. -/
theorem rowAt_self (j : S5000x64.Idx) : rowAt j ⟨(j 1).val, (j 1).isLt⟩ = j := by
  funext a
  match a with
  | ⟨0, _⟩ => rfl
  | ⟨1, _⟩ => rfl

/-- The body's payload at an index of the block: the softmax of that index's row, at its column. -/
theorem pay_apply (x : Vec Ideal S5000x64 .f32) (j : S5000x64.Idx) :
    k1_pay1 (F := Ideal) x j = Gcn.rowSoft (fun k => x (rowAt j k)) ⟨(j 1).val, (j 1).isLt⟩ := by
  unfold k1_pay1
  simp only [shapeCast_self]
  refine (ValueIdx.divf_apply _ _ j).trans ?_
  rw [colcast_apply, rowsum_apply, shifted_apply]
  unfold Gcn.rowSoft
  beta_reduce
  rw [rowAt_self]
  -- the entries of the row of (row of j, column k) are the entries of the row of j
  exact congrArg (Ideal.div _) (Finset.sum_congr rfl fun k _ => shifted_apply x (rowAt j k))

/-! ## What a grid point writes back -/

variable (V : (c : Dev nD) → (b : Ref sig .tc) → Buf (Elt Ideal) ((c : Thread nD τ).loc b))

theorem hz : (![0, 0] : Fin 2 → Nat) = fun _ => 0 := funext fun a => by fin_cases a <;> rfl

/-- The two windows' index maps, decided over the 20 grid points: both take block t of the rows and the one block of the
    columns. -/
theorem idx_facts : ∀ t : Fin cfg1.N, win1_0.index t (0 : Fin 2) = win1_1.index t (0 : Fin 2)
    ∧ win1_0.index t (1 : Fin 2) = 0 ∧ win1_1.index t (1 : Fin 2) = 0 ∧ win1_1.index t (0 : Fin 2) ≤ 19 :=
  (by decide +kernel : ∀ t : Fin grid1.N, win1_0.index t (0 : Fin 2) = win1_1.index t (0 : Fin 2)
    ∧ win1_0.index t (1 : Fin 2) = 0 ∧ win1_1.index t (1 : Fin 2) = 0 ∧ win1_1.index t (0 : Fin 2) ≤ 19)

/-- What grid point t writes back is block t of the row softmax of the array the region is entered with. -/
theorem flushed_eq (c : Dev nD) (t : Fin cfg1.N) :
    (dat1 (F := Ideal) V c).flushed 1 t = ((cfg1.win 1).blk t).view.read (Elt Ideal) (Gcn.soft (V c main_v14)) := by
  show (cfg1.win 1).cut (grid1.coords t) ((dat1 V c).after 1 t) = _
  rw [after1_1]
  unfold out1_1
  rw [View.canon_unit_zero hz]
  simp only [View.ld_unit_zero (S := S5000x64) hz]
  funext j
  show k1_pay1 (F := Ideal) (iblk1 V c 0 t) j = Gcn.soft (V c main_v14) (((cfg1.win 1).blk t).view.emb j)
  refine (pay_apply _ j).trans ?_
  unfold Gcn.soft iblk1
  obtain ⟨e0, e1, e2, e3⟩ := idx_facts t
  -- the input block's entry at (row of j, column k) is the array's entry in the row of j's array index, column k
  have h1 : ∀ k : Fin 64, ((cfg1.win 0).blk t).view.emb (rowAt j k) = Gcn.rc (((cfg1.win 1).blk t).view.emb j) k := by
    intro k
    funext a; apply Fin.ext
    match a with
    | ⟨0, _⟩ =>
      show win1_0.index t (0 : Fin 2) * 5000 + 1 * (j 0).val = win1_1.index t (0 : Fin 2) * 5000 + 1 * (j 0).val
      omega
    | ⟨1, _⟩ =>
      show win1_0.index t (1 : Fin 2) * 64 + 1 * k.val = k.val
      omega
  -- the column of j's array index is j's column
  have h2 : (⟨(j 1).val, (j 1).isLt⟩ : Fin 64)
      = ⟨(((cfg1.win 1).blk t).view.emb j 1).val, (((cfg1.win 1).blk t).view.emb j 1).isLt⟩ := by
    apply Fin.ext
    show (j 1).val = win1_1.index t (1 : Fin 2) * 64 + 1 * (j 1).val
    omega
  have hv : (fun k : Fin 64 => View.read (Elt Ideal) ((cfg1.win 0).blk t).view (V c (Pipeline.arrRef spec1 0)) (rowAt j k))
      = fun k => V c main_v14 (Gcn.rc (((cfg1.win 1).blk t).view.emb j) k) :=
    funext fun k => congrArg (V c main_v14) (h1 k)
  rw [hv, h2]

/-! ## The blocks cover the array -/

/-- An index of the array is in point t's block iff each coordinate is in the block's range on its axis. -/
theorem mem_blk (t : Fin cfg1.N) (i : S100000x64.Idx) :
    i ∈ ((cfg1.win 1).blk t).view.set ↔ ∀ a : Fin 2, win1_1.index t a * S5000x64.size a ≤ (i a).val
      ∧ (i a).val < win1_1.index t a * S5000x64.size a + S5000x64.size a := by
  show i ∈ ((View.whole main_v15).slice (win1_1.rect t)).set ↔ _
  rw [View.set_slice_whole, Rect.mem_set_unit]
  exact Iff.rfl

/-- Every one of the 20 row blocks is some grid point's. -/
theorem idx_onto : ∀ q : Fin 20, ∃ t : Fin cfg1.N, win1_1.index t = ![q.val, 0] :=
  (by decide +kernel : ∀ q : Fin 20, ∃ t : Fin grid1.N, win1_1.index t = ![q.val, 0])

/-- The 20 blocks of 5000 rows cover the 100000 rows: row r lies in block r / 5000. -/
theorem cover (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  obtain ⟨t, ht⟩ := idx_onto ⟨(i 0).val / 5000, by omega⟩
  have q0 : win1_1.index t (0 : Fin 2) = (i 0).val / 5000 := congrFun ht 0
  have q1 : win1_1.index t (1 : Fin 2) = 0 := congrFun ht 1
  refine ⟨t, flush1_1 t, ?_⟩
  rw [mem_blk]
  intro a
  match a with
  | ⟨0, _⟩ =>
    show win1_1.index t (0 : Fin 2) * 5000 ≤ (i 0).val ∧ (i 0).val < win1_1.index t (0 : Fin 2) * 5000 + 5000
    omega
  | ⟨1, _⟩ =>
    show win1_1.index t (1 : Fin 2) * 64 ≤ (i 1).val ∧ (i 1).val < win1_1.index t (1 : Fin 2) * 64 + 64
    omega

/-- The output array when the region is left: the row softmax of the input array as the region found it. -/
theorem final1 (c : Dev nD) :
    (dat1 (F := Ideal) V c).arrAt 1 cfg1.N = Gcn.soft (V c main_v14) :=
  (dat1 V c).arrAt_eq_of_cover 1 _ (fun t _ => flushed_eq V c t) cover

end Cert.KernelIdeal.SoftRegion

end
-- ==== Proof.KernelValue.lean ====
/-
  The kernel program's result as one function of its arguments.

  Reading the last boundary of the run backwards: the result array is what the softmax's pipeline leaves, the row
  softmax of the array it is entered with; that array is the edge aggregation of the projection pipeline's result; and
  that result is the projection of the feature matrix and the weight matrix narrowed to bf16, which at the ideal
  values is the weight matrix itself. So the result is soft (agg (proj x W) src dst w).
-/
import proofs.«425179_j36859409334535_3_alg».proof.Proof.KernelRun
import proofs.«425179_j36859409334535_3_alg».proof.Proof.Stretches
import proofs.«425179_j36859409334535_3_alg».proof.Proof.ProjRegion
import proofs.«425179_j36859409334535_3_alg».proof.Proof.SoftRegion

noncomputable section

namespace Cert.KernelIdeal.Result

open Cert.KernelIdeal Cert.KernelIdeal.Gen
open Idealize.ShloMosaic Idealize.ShloMosaic.TcCoe Idealize.SL.Sem

/-- Narrowing the weight matrix to bf16 changes no entry at the ideal values, so the projection is the same. -/
theorem proj_narrow (x : FVec Ideal S100000x512 .f32) (w : FVec Ideal S512x64 .f32) :
    Gcn.proj x (truncf (F := Ideal) (s := S512x64) .bf16 w bitsLt_bf16_f32 : FVec Ideal S512x64 .bf16) = Gcn.proj x w := rfl

variable (m : (ℓ : Loc nD τ sig) → Buf (Elt Ideal) ℓ) (ρ : Dev nD → PrngReg)

/-- The result array as a function of the argument arrays. -/
def result (c : Dev nD) : Buf (Elt Ideal) ((c.tc : Thread nD τ).loc main_v15) :=
  Gcn.soft (Mid.agg (F := Ideal)
    (Gcn.proj (m ((c.tc : Thread nD τ).loc main_arg0)) (m ((c.tc : Thread nD τ).loc main_arg4)))
    (m ((c.tc : Thread nD τ).loc main_arg1)) (m ((c.tc : Thread nD τ).loc main_arg2)) (m ((c.tc : Thread nD τ).loc main_arg3)))

/-- The last boundary's contents at the result array are that function. -/
theorem last_eq (c : Dev nD) : W4 m ρ c (Proc.devRef .tc main_v15) = result m c := by
  rw [Mid.exit_out, SoftRegion.final1, Mid.entry1_agg, Mid.mid_h, ProjRegion.final0, Mid.entry0_x, Mid.entry0_w, proj_narrow]
  rfl

/-- Every weakly fair execution of the kernel program terminates with the result array at result and the argument
    arrays as launched. -/
theorem run : θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (last_eq m ρ c), (h c).2⟩) (Named.run_named m ρ)

end Cert.KernelIdeal.Result

end
-- ==== Proof.RefValue.lean ====
/-
  The reference, read from its last stage back.

  Its first stage is the dense projection, a host matrix product: entry (r, c) the sum over k of x(r, k) * w(k, c).
  Its last eleven stages take the row softmax of the scatter stage a: the maximum of each row (a fold of max from
  minus infinity's value), the maximum with minus infinity once more (which changes nothing), the maximum spread back
  over the row, subtracted, exponentiated, the row's sum from a zero start (which is dropped), spread back, divided.
  Read at an index i = (r, c) that is exp (a (r, c) - max of row r) divided by the sum over k of
  exp (a (r, k) - max of row r): soft a. The scatter stage itself is never opened.
-/
import proofs.«425179_j36859409334535_3_alg».proof.Proof.Gen.ReferenceIdeal.Read
import proofs.«425179_j36859409334535_3_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic

/-- The projection stage is proj: the generated reading of the product at an index has the same two index maps. -/
theorem ref_proj (x0 : (⟨S100000x512, .f32⟩ : BufTy).Contents (Elt Ideal)) (x4 : (⟨S512x64, .f32⟩ : BufTy).Contents (Elt Ideal)) :
    val_main_v0 (F := Ideal) x0 x4 = Gcn.proj x0 x4 := by
  funext i
  rw [val_main_v0_apply]
  rfl

/-- Putting column k back into a row index gives (row, k). -/
theorem lift_row (j : S100000.Idx) (k : Fin 64) :
    (show S100000x64.Reduces [1] S100000 by decide).lift j k = idx_main_v21 j k :=
  funext fun a => Fin.ext (by match a with | ⟨0, _⟩ => rfl | ⟨1, _⟩ => rfl)

/-- The host's maximum over the columns, from minus infinity's value, is the row's maximum. The starting value is
    rewritten to the bit pattern's value by name, so that nothing computes with the pattern. -/
theorem max_stage (a : (⟨S100000x64, .f32⟩ : BufTy).Contents (Elt Ideal)) (j : S100000.Idx) :
    Host.reduce (FloatOps.maximumf (F := Ideal) (φ := .f32)) a (val_main_cst_1 (F := Ideal)) reducesTo_S100000x64_S100000_d1 h_S_ j
      = Gcn.rowMax (fun k => a (idx_main_v21 j k)) := by
  rw [Host.reduce_eq_fold_single (FloatOps.maximumf (F := Ideal) (φ := .f32)) a _ reducesTo_S100000x64_S100000_d1 (by decide) h_S_ j,
    val_main_cst_1_apply, Ideal.ofBits_def]
  show Finset.fold max (Ideal.ofBits .f32 0xFF800000#32)
      (fun k : Fin 64 => a ((show S100000x64.Reduces [1] S100000 by decide).lift j k)) Finset.univ
    = Finset.fold max (Ideal.ofBits .f32 0xFF800000#32) (fun k : Fin 64 => a (idx_main_v21 j k)) Finset.univ
  simp only [lift_row]

/-- Spreading a per-row value back over the row and reading it at y, then walking the row: the row of y. -/
theorem row_of_max_bcast (y : S100000x64.Idx) (k : Fin 64) : idx_main_v21 (idx_main_v17 (idx_main_v18 y)) k = Gcn.rc y k :=
  funext fun a => Fin.ext (by match a with | ⟨0, _⟩ => rfl | ⟨1, _⟩ => rfl)
/-- The same for the broadcast of the row sums. -/
theorem row_of_sum_bcast (y : S100000x64.Idx) (k : Fin 64) : idx_main_v21 (idx_main_v22 (idx_main_v23 y)) k = Gcn.rc y k :=
  funext fun a => Fin.ext (by match a with | ⟨0, _⟩ => rfl | ⟨1, _⟩ => rfl)
/-- An index in the row of i has the same row as i. -/
theorem rc_rc (i : S100000x64.Idx) (k k' : Fin 64) : Gcn.rc (Gcn.rc i k) k' = Gcn.rc i k' :=
  funext fun a => Fin.ext (by match a with | ⟨0, _⟩ => rfl | ⟨1, _⟩ => rfl)
/-- An index is the index in its own row at its own column. -/
theorem rc_self (i : S100000x64.Idx) : Gcn.rc i ⟨(i 1).val, (i 1).isLt⟩ = i :=
  funext fun a => Fin.ext (by match a with | ⟨0, _⟩ => rfl | ⟨1, _⟩ => rfl)

section Stages

variable (x0 : (⟨S100000x512, .f32⟩ : BufTy).Contents (Elt Ideal)) (x1 x2 : (⟨S1600000, .i32⟩ : BufTy).Contents (Elt Ideal))
  (x3 : (⟨S1600000, .f32⟩ : BufTy).Contents (Elt Ideal)) (x4 : (⟨S512x64, .f32⟩ : BufTy).Contents (Elt Ideal))

/-- The maximum the reference subtracts, at row j: the row's maximum of the scatter stage (the second maximum with
    minus infinity is absorbed: the fold is already above its start). -/
theorem rowmax_stage (j : S100000.Idx) :
    val_main_v16 (F := Ideal) x0 x1 x2 x3 x4 j
      = Gcn.rowMax (fun k => val_main_v13 (F := Ideal) x0 x1 x2 x3 x4 (idx_main_v21 j k)) := by
  have h14 : val_main_v14 (F := Ideal) x0 x1 x2 x3 x4 j
      = Gcn.rowMax (fun k => val_main_v13 (F := Ideal) x0 x1 x2 x3 x4 (idx_main_v21 j k)) := by
    unfold val_main_v14
    exact max_stage _ j
  rw [val_main_v16_apply, val_main_v15_apply, val_main_cst_2_apply, Ideal.ofBits_def, Ideal.maximumf_def, h14]
  exact Gcn.max_start_rowMax _

/-- The shifted exponential at an index y: exp of the entry minus its row's maximum. -/
theorem exp_stage (y : S100000x64.Idx) :
    val_main_v20 (F := Ideal) x0 x1 x2 x3 x4 y
      = Ideal.exp (val_main_v13 (F := Ideal) x0 x1 x2 x3 x4 y
          - Gcn.rowMax (fun k => val_main_v13 (F := Ideal) x0 x1 x2 x3 x4 (Gcn.rc y k))) := by
  rw [val_main_v20_apply, Ideal.hostUnary_exp_def, val_main_v19_apply, Ideal.subf_def, val_main_v18_apply, val_main_v17_apply,
    rowmax_stage]
  simp only [row_of_max_bcast]

/-- The reference's result is the row softmax of its scatter stage. -/
theorem ref_soft :
    val_main_v24 (F := Ideal) x0 x1 x2 x3 x4 = Gcn.soft (val_main_v13 (F := Ideal) x0 x1 x2 x3 x4) := by
  funext i
  rw [val_main_v24_apply, Ideal.hostDivf_def, val_main_v23_apply, val_main_v22_apply, val_main_v21_apply,
    val_main_cst_3_apply, Ideal.ofBits_def, Ideal.ofBits_zero_f32, zero_add, exp_stage]
  simp only [exp_stage, row_of_sum_bcast, rc_rc]
  unfold Gcn.soft Gcn.rowSoft
  simp only [rc_self]

end Stages

end Cert.ReferenceIdeal.RefValue

end
-- ==== Proof.RefAgg.lean ====
/-
  The reference's edge aggregation, named.

  The reference applies to its projection h the same sixteen operations the kernel program applies between its two
  pipelines: wrap negative source indices, gather the rows of h at the sources, scale each by its edge weight,
  scatter-add into a zero array at the destinations. Here that chain is given a name and the reference's stage that
  holds its result is shown to be the name applied to the reference's projection stage; the chain is never opened.
-/
import proofs.«425179_j36859409334535_3_alg».proof.Proof.Gen.ReferenceIdeal.Read

noncomputable section

namespace Cert.ReferenceIdeal.RefAgg

open Cert.ReferenceIdeal Cert.ReferenceIdeal.Gen Cert.ReferenceIdeal.Read Idealize.ShloMosaic

variable {F : FTy → Type} [FloatOps F]

/-- out[d] = sum over edges e with dst e = d of h[src' e] * w e, as the reference's host operations spell it. -/
def agg (h : (⟨S100000x64, .f32⟩ : BufTy).Contents (Elt F)) (src dst : (⟨S1600000, .i32⟩ : BufTy).Contents (Elt F))
    (w : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1
        (broadcastInDim S1600000x1 ![0] bcast_S1600000_S1600000x1_0 w)))

/-- The reference's scatter stage is the aggregation of its projection stage. -/
theorem scatter_stage (x0 : (⟨S100000x512, .f32⟩ : BufTy).Contents (Elt F)) (x1 x2 : (⟨S1600000, .i32⟩ : BufTy).Contents (Elt F))
    (x3 : (⟨S1600000, .f32⟩ : BufTy).Contents (Elt F)) (x4 : (⟨S512x64, .f32⟩ : BufTy).Contents (Elt F)) :
    val_main_v13 (F := F) x0 x1 x2 x3 x4 = agg (val_main_v0 (F := F) x0 x4) x1 x2 x3 := by
  unfold val_main_v13 val_main_v12 val_main_v11 val_main_v10 val_main_v9 val_main_v8 val_main_v7 val_main_v6 val_main_v5
    val_main_v4 val_main_v3 val_main_v2 val_main_v1 val_main_cst val_main_c_0 val_main_c agg
  rfl

end Cert.ReferenceIdeal.RefAgg

end
-- ==== Proof.AggBridge.lean ====
/-
  The two programs' edge aggregations are one function.

  Each program prints its own copy of the records that describe the gather and the scatter (which axes are
  collapsed, which carry the index vector), and its own copy of the shapes. The copies have the same fields, so the
  two named chains are the same function of (h, src, dst, w); nothing about gathering or scatter-adding is used.
-/
import proofs.«425179_j36859409334535_3_alg».proof.Proof.Stretches
import proofs.«425179_j36859409334535_3_alg».proof.Proof.RefAgg

noncomputable section

namespace Cert.Proof.AggBridge

open Idealize.ShloMosaic

variable {F : FTy → Type} [FloatOps F]

theorem agg_eq (h : (⟨Cert.KernelIdeal.S100000x64, .f32⟩ : BufTy).Contents (Elt F))
    (src dst : (⟨Cert.KernelIdeal.S1600000, .i32⟩ : BufTy).Contents (Elt F))
    (w : (⟨Cert.KernelIdeal.S1600000, .f32⟩ : BufTy).Contents (Elt F)) :
    Cert.KernelIdeal.Mid.agg (F := F) h src dst w = Cert.ReferenceIdeal.RefAgg.agg (F := F) h src dst w := by
  unfold Cert.KernelIdeal.Mid.agg Cert.ReferenceIdeal.RefAgg.agg
  rfl

end Cert.Proof.AggBridge

end
-- ==== Proof.lean ====
/-
  A graph convolution layer: softmax over each row of A_hat * (X * W), with A_hat given as an edge list.

  The kernel program computes X * W in a pipeline of 25 row blocks (the matrix unit, operands narrowed to bf16,
  which at the ideal values changes nothing), gathers and scatter-adds along the edges with plain host operations,
  and takes the row softmax in a second pipeline of 20 row blocks. The reference does all three steps with host
  operations. Over the extended reals both results are

      soft (agg (proj X W) src dst w),

  proj the matrix product as a 512-term sum, agg the edge aggregation (the same sixteen host operations in both
  programs, carried as one name and never opened), soft the row softmax exp (a - max) / sum exp (a - max). The only
  algebra between the two texts: a sum does not depend on the order of its terms; the reference takes the maximum with
  minus infinity once more, which changes nothing; a zero starting value of a sum is dropped. No step needs the inputs
  to be finite, so the precondition is not opened.

  The three frames: the two kernel programs' are the generated frame certificates; the reference's is its generated
  run with the result dropped. The idealization rewrote no operation, so that conjunct is True.
-/
import proofs.«425179_j36859409334535_3_alg».proof.Defs
import proofs.«425179_j36859409334535_3_alg».proof.Proof.Gen.Kernel
import proofs.«425179_j36859409334535_3_alg».proof.Proof.Gen.Kernel.Skeleton
import proofs.«425179_j36859409334535_3_alg».proof.Proof.Gen.Kernel.Launch
import proofs.«425179_j36859409334535_3_alg».proof.Proof.Gen.Kernel.Points
import proofs.«425179_j36859409334535_3_alg».proof.Proof.Gen.Kernel.Frame
import proofs.«425179_j36859409334535_3_alg».proof.Proof.Gen.KernelIdeal
import proofs.«425179_j36859409334535_3_alg».proof.Proof.Gen.KernelIdeal.Skeleton
import proofs.«425179_j36859409334535_3_alg».proof.Proof.Gen.KernelIdeal.Launch
import proofs.«425179_j36859409334535_3_alg».proof.Proof.Gen.KernelIdeal.Points
import proofs.«425179_j36859409334535_3_alg».proof.Proof.Gen.KernelIdeal.Frame
import proofs.«425179_j36859409334535_3_alg».proof.Proof.Gen.ReferenceIdeal
import proofs.«425179_j36859409334535_3_alg».proof.Proof.Gen.ReferenceIdeal.Run
import proofs.«425179_j36859409334535_3_alg».proof.Proof.Gen.ReferenceIdeal.Read
import proofs.«425179_j36859409334535_3_alg».proof.Proof.Gen.Pre_finite_inputs
import proofs.«425179_j36859409334535_3_alg».proof.Proof.KernelValue
import proofs.«425179_j36859409334535_3_alg».proof.Proof.RefValue
import proofs.«425179_j36859409334535_3_alg».proof.Proof.RefAgg
import proofs.«425179_j36859409334535_3_alg».proof.Proof.AggBridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the five arguments the two programs end with the same array: the reference's stages,
    read from the last back, are the row softmax of the edge aggregation of the projection, and so is the kernel
    program's last boundary. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v24_eq, a0, a1, a2, a3, a4, Cert.ReferenceIdeal.RefValue.ref_soft,
    Cert.ReferenceIdeal.RefAgg.scatter_stage, Cert.ReferenceIdeal.RefValue.ref_proj]
  exact (congrArg Gcn.soft (Cert.Proof.AggBridge.agg_eq _ _ _ _)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
